-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1x512 : Shape := ⟨2, ![1, 512]⟩
abbrev S512x64x16 : Shape := ⟨3, ![512, 64, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512x64x16 : S_.BroadcastsInDim S512x64x16 (![] : Fin 0 → Fin S512x64x16.rank)
  reducesTo_S512x64x16_S_d0_1_2 : S512x64x16.ReducesTo [0, 1, 2] S_

variable [Facts]

def fn {F : FTy → Type} [FloatOps F] (main_arg0 : FVec F S512x512 .f32) (main_arg1 : FVec F S1x512 .f32) (main_arg2 : FVec F S512x64x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S512x64x16 .f32 := Host.absf main_arg2
  let main_cst_2 : FVec F S_ .f32 := constant S_ .f32 0x7F800000#32
  let main_v10 : FVec F S512x64x16 .f32 := broadcastInDim S512x64x16 ![] bcast_S_S512x64x16 main_cst_2
  let main_v11 : IVec S512x64x16 1 := cmpf .olt main_v9 main_v10
  let main_c_3 : IVec S_ 1 := constantI S_ 1 1#1
  let main_v12 : IVec S_ 1 := (fun x v => Host.reduce IntOp.andi x v reducesTo_S512x64x16_S_d0_1_2 h_S_) main_v11 main_c_3
  let main_v13 : IVec S_ 1 := andi main_v8 main_v12
  main_v13
-- ==== Kernel.lean ====
abbrev S512x512 : Shape := ⟨2, ![512, 512]⟩
abbrev S1x512 : Shape := ⟨2, ![1, 512]⟩
abbrev S512x64x16 : Shape := ⟨3, ![512, 64, 16]⟩
abbrev S512x1024 : Shape := ⟨2, ![512, 1024]⟩
abbrev S512x1 : Shape := ⟨2, ![512, 1]⟩
abbrev S512x64 : Shape := ⟨2, ![512, 64]⟩
abbrev S128x1 : Shape := ⟨2, ![128, 1]⟩
abbrev S128x64 : Shape := ⟨2, ![128, 64]⟩
abbrev S128x1024 : Shape := ⟨2, ![128, 1024]⟩
abbrev S512x16 : Shape := ⟨2, ![512, 16]⟩
abbrev S128x16 : Shape := ⟨2, ![128, 16]⟩
abbrev S16x512 : Shape := ⟨2, ![16, 512]⟩
abbrev S16x128 : Shape := ⟨2, ![16, 128]⟩
abbrev S16x128x1 : Shape := ⟨3, ![16, 128, 1]⟩
abbrev S16x1x512 : Shape := ⟨3, ![16, 1, 512]⟩
abbrev S16x128x512 : Shape := ⟨3, ![16, 128, 512]⟩
abbrev S128x512 : Shape := ⟨2, ![128, 512]⟩
abbrev S128 : Shape := ⟨1, ![128]⟩

abbrev nBuf : Space → Nat
  | .hbm => 6
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S1x512, .f32⟩
  | .hbm, ⟨2, _⟩ => ⟨S512x64x16, .f32⟩
  | .hbm, ⟨3, _⟩ => ⟨S512x1024, .f32⟩
  | .hbm, ⟨4, _⟩ => ⟨S512x1, .f32⟩
  | .hbm, ⟨5, _⟩ => ⟨S512x64, .f32⟩
  | .local _ .vmem, ⟨0, _⟩ => ⟨S512x512, .f32⟩
  | .local _ .vmem, ⟨1, _⟩ => ⟨S512x1024, .f32⟩
  | .local _ .vmem, ⟨2, _⟩ => ⟨S128x1, .f32⟩
  | .local _ .vmem, ⟨3, _⟩ => ⟨S128x1, .f32⟩
  | .local _ .vmem, ⟨4, _⟩ => ⟨S128x64, .f32⟩
  | .local _ .vmem, ⟨5, _⟩ => ⟨S128x64, .f32⟩
  | .local _ .vmem, ⟨6, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_5 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x64x16_S512x1024 : S512x64x16.ShapeCasts S512x1024
  shapeCasts_S1x512_S512x1 : S1x512.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S128x1024 : 0 < S128x1024.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x1024_S512x16_0_0 : ∀ a, (![0, 0] : Fin 2 → Nat) a + S512x16.size a ≤ S512x1024.size a
  h_S512x16 : 0 < S512x16.numel
  slices_S128x1024_o0_0_S128x16 : S128x1024.Slices ![0, 0] S128x16
  transposes_S512x16_p1_0_S16x512 : S512x16.Transposes [1, 0] S16x512
  transposes_S128x16_p1_0_S16x128 : S128x16.Transposes [1, 0] S16x128
  shapeCasts_S16x128_S16x128x1 : S16x128.ShapeCasts S16x128x1
  shapeCasts_S16x512_S16x1x512 : S16x512.ShapeCasts S16x1x512
  broadcasts_S16x128x1_S16x128x512 : S16x128x1.Broadcasts S16x128x512
  broadcasts_S16x1x512_S16x128x512 : S16x1x512.Broadcasts S16x128x512
  reduces_S16x128x512_S128x512 : S16x128x512.Reduces [0] S128x512
  reduces_S128x512_S128 : S128x512.Reduces [1] S128
  shapeCasts_S128_S128x1 : S128.ShapeCasts S128x1
  inb_S128x64_S128x1_0_0 : ∀ a, (![0, 0] : Fin 2 → Nat) a + S128x1.size a ≤ S128x64.size a
  inb_S512x1024_S512x16_0_16 : ∀ a, (![0, 16] : Fin 2 → Nat) a + S512x16.size a ≤ S512x1024.size a
  slices_S128x1024_o0_16_S128x16 : S128x1024.Slices ![0, 16] S128x16
  inb_S128x64_S128x1_0_1 : ∀ a, (![0, 1] : Fin 2 → Nat) a + S128x1.size a ≤ S128x64.size a
  inb_S512x1024_S512x16_0_32 : ∀ a, (![0, 32] : Fin 2 → Nat) a + S512x16.size a ≤ S512x1024.size a
  slices_S128x1024_o0_32_S128x16 : S128x1024.Slices ![0, 32] S128x16
  inb_S128x64_S128x1_0_2 : ∀ a, (![0, 2] : Fin 2 → Nat) a + S128x1.size a ≤ S128x64.size a
  inb_S512x1024_S512x16_0_48 : ∀ a, (![0, 48] : Fin 2 → Nat) a + S512x16.size a ≤ S512x1024.size a
  slices_S128x1024_o0_48_S128x16 : S128x1024.Slices ![0, 48] S128x16
  inb_S128x64_S128x1_0_3 : ∀ a, (![0, 3] : Fin 2 → Nat) a + S128x1.size a ≤ S128x64.size a
  inb_S512x1024_S512x16_0_64 : ∀ a, (![0, 64] : Fin 2 → Nat) a + S512x16.size a ≤ S512x1024.size a
  slices_S128x1024_o0_64_S128x16 : S128x1024.Slices ![0, 64] S128x16
  inb_S128x64_S128x1_0_4 : ∀ a, (![0, 4] : Fin 2 → Nat) a + S128x1.size a ≤ S128x64.size a
  inb_S512x1024_S512x16_0_80 : ∀ a, (![0, 80] : Fin 2 → Nat) a + S512x16.size a ≤ S512x1024.size a
  slices_S128x1024_o0_80_S128x16 : S128x1024.Slices ![0, 80] S128x16
  inb_S128x64_S128x1_0_5 : ∀ a, (![0, 5] : Fin 2 → Nat) a + S128x1.size a ≤ S128x64.size a
  inb_S512x1024_S512x16_0_96 : ∀ a, (![0, 96] : Fin 2 → Nat) a + S512x16.size a ≤ S512x1024.size a
  slices_S128x1024_o0_96_S128x16 : S128x1024.Slices ![0, 96] S128x16
  inb_S128x64_S128x1_0_6 : ∀ a, (![0, 6] : Fin 2 → Nat) a + S128x1.size a ≤ S128x64.size a
  inb_S512x1024_S512x16_0_112 : ∀ a, (![0, 112] : Fin 2 → Nat) a + S512x16.size a ≤ S512x1024.size a
  slices_S128x1024_o0_112_S128x16 : S128x1024.Slices ![0, 112] S128x16
  inb_S128x64_S128x1_0_7 : ∀ a, (![0, 7] : Fin 2 → Nat) a + S128x1.size a ≤ S128x64.size a
  inb_S512x1024_S512x16_0_128 : ∀ a, (![0, 128] : Fin 2 → Nat) a + S512x16.size a ≤ S512x1024.size a
  slices_S128x1024_o0_128_S128x16 : S128x1024.Slices ![0, 128] S128x16
  inb_S128x64_S128x1_0_8 : ∀ a, (![0, 8] : Fin 2 → Nat) a + S128x1.size a ≤ S128x64.size a
  inb_S512x1024_S512x16_0_144 : ∀ a, (![0, 144] : Fin 2 → Nat) a + S512x16.size a ≤ S512x1024.size a
  slices_S128x1024_o0_144_S128x16 : S128x1024.Slices ![0, 144] S128x16
  inb_S128x64_S128x1_0_9 : ∀ a, (![0, 9] : Fin 2 → Nat) a + S128x1.size a ≤ S128x64.size a
  inb_S512x1024_S512x16_0_160 : ∀ a, (![0, 160] : Fin 2 → Nat) a + S512x16.size a ≤ S512x1024.size a
  slices_S128x1024_o0_160_S128x16 : S128x1024.Slices ![0, 160] S128x16
  inb_S128x64_S128x1_0_10 : ∀ a, (![0, 10] : Fin 2 → Nat) a + S128x1.size a ≤ S128x64.size a
  inb_S512x1024_S512x16_0_176 : ∀ a, (![0, 176] : Fin 2 → Nat) a + S512x16.size a ≤ S512x1024.size a
  slices_S128x1024_o0_176_S128x16 : S128x1024.Slices ![0, 176] S128x16
  inb_S128x64_S128x1_0_11 : ∀ a, (![0, 11] : Fin 2 → Nat) a + S128x1.size a ≤ S128x64.size a
  inb_S512x1024_S512x16_0_192 : ∀ a, (![0, 192] : Fin 2 → Nat) a + S512x16.size a ≤ S512x1024.size a
  slices_S128x1024_o0_192_S128x16 : S128x1024.Slices ![0, 192] S128x16
  inb_S128x64_S128x1_0_12 : ∀ a, (![0, 12] : Fin 2 → Nat) a + S128x1.size a ≤ S128x64.size a
  inb_S512x1024_S512x16_0_208 : ∀ a, (![0, 208] : Fin 2 → Nat) a + S512x16.size a ≤ S512x1024.size a
  slices_S128x1024_o0_208_S128x16 : S128x1024.Slices ![0, 208] S128x16
  inb_S128x64_S128x1_0_13 : ∀ a, (![0, 13] : Fin 2 → Nat) a + S128x1.size a ≤ S128x64.size a
  inb_S512x1024_S512x16_0_224 : ∀ a, (![0, 224] : Fin 2 → Nat) a + S512x16.size a ≤ S512x1024.size a
  slices_S128x1024_o0_224_S128x16 : S128x1024.Slices ![0, 224] S128x16
  inb_S128x64_S128x1_0_14 : ∀ a, (![0, 14] : Fin 2 → Nat) a + S128x1.size a ≤ S128x64.size a
  inb_S512x1024_S512x16_0_240 : ∀ a, (![0, 240] : Fin 2 → Nat) a + S512x16.size a ≤ S512x1024.size a
  slices_S128x1024_o0_240_S128x16 : S128x1024.Slices ![0, 240] S128x16
  inb_S128x64_S128x1_0_15 : ∀ a, (![0, 15] : Fin 2 → Nat) a + S128x1.size a ≤ S128x64.size a
  inb_S512x1024_S512x16_0_256 : ∀ a, (![0, 256] : Fin 2 → Nat) a + S512x16.size a ≤ S512x1024.size a
  slices_S128x1024_o0_256_S128x16 : S128x1024.Slices ![0, 256] S128x16
  inb_S128x64_S128x1_0_16 : ∀ a, (![0, 16] : Fin 2 → Nat) a + S128x1.size a ≤ S128x64.size a
  inb_S512x1024_S512x16_0_272 : ∀ a, (![0, 272] : Fin 2 → Nat) a + S512x16.size a ≤ S512x1024.size a
  slices_S128x1024_o0_272_S128x16 : S128x1024.Slices ![0, 272] S128x16
  inb_S128x64_S128x1_0_17 : ∀ a, (![0, 17] : Fin 2 → Nat) a + S128x1.size a ≤ S128x64.size a
  inb_S512x1024_S512x16_0_288 : ∀ a, (![0, 288] : Fin 2 → Nat) a + S512x16.size a ≤ S512x1024.size a
  slices_S128x1024_o0_288_S128x16 : S128x1024.Slices ![0, 288] S128x16
  inb_S128x64_S128x1_0_18 : ∀ a, (![0, 18] : Fin 2 → Nat) a + S128x1.size a ≤ S128x64.size a
  inb_S512x1024_S512x16_0_304 : ∀ a, (![0, 304] : Fin 2 → Nat) a + S512x16.size a ≤ S512x1024.size a
  slices_S128x1024_o0_304_S128x16 : S128x1024.Slices ![0, 304] S128x16
  inb_S128x64_S128x1_0_19 : ∀ a, (![0, 19] : Fin 2 → Nat) a + S128x1.size a ≤ S128x64.size a
  inb_S512x1024_S512x16_0_320 : ∀ a, (![0, 320] : Fin 2 → Nat) a + S512x16.size a ≤ S512x1024.size a
  slices_S128x1024_o0_320_S128x16 : S128x1024.Slices ![0, 320] S128x16
  inb_S128x64_S128x1_0_20 : ∀ a, (![0, 20] : Fin 2 → Nat) a + S128x1.size a ≤ S128x64.size a
  inb_S512x1024_S512x16_0_336 : ∀ a, (![0, 336] : Fin 2 → Nat) a + S512x16.size a ≤ S512x1024.size a
  slices_S128x1024_o0_336_S128x16 : S128x1024.Slices ![0, 336] S128x16
  inb_S128x64_S128x1_0_21 : ∀ a, (![0, 21] : Fin 2 → Nat) a + S128x1.size a ≤ S128x64.size a
  inb_S512x1024_S512x16_0_352 : ∀ a, (![0, 352] : Fin 2 → Nat) a + S512x16.size a ≤ S512x1024.size a
  slices_S128x1024_o0_352_S128x16 : S128x1024.Slices ![0, 352] S128x16
  inb_S128x64_S128x1_0_22 : ∀ a, (![0, 22] : Fin 2 → Nat) a + S128x1.size a ≤ S128x64.size a
  inb_S512x1024_S512x16_0_368 : ∀ a, (![0, 368] : Fin 2 → Nat) a + S512x16.size a ≤ S512x1024.size a
  slices_S128x1024_o0_368_S128x16 : S128x1024.Slices ![0, 368] S128x16
  inb_S128x64_S128x1_0_23 : ∀ a, (![0, 23] : Fin 2 → Nat) a + S128x1.size a ≤ S128x64.size a
  inb_S512x1024_S512x16_0_384 : ∀ a, (![0, 384] : Fin 2 → Nat) a + S512x16.size a ≤ S512x1024.size a
  slices_S128x1024_o0_384_S128x16 : S128x1024.Slices ![0, 384] S128x16
  inb_S128x64_S128x1_0_24 : ∀ a, (![0, 24] : Fin 2 → Nat) a + S128x1.size a ≤ S128x64.size a
  inb_S512x1024_S512x16_0_400 : ∀ a, (![0, 400] : Fin 2 → Nat) a + S512x16.size a ≤ S512x1024.size a
  slices_S128x1024_o0_400_S128x16 : S128x1024.Slices ![0, 400] S128x16
  inb_S128x64_S128x1_0_25 : ∀ a, (![0, 25] : Fin 2 → Nat) a + S128x1.size a ≤ S128x64.size a
  inb_S512x1024_S512x16_0_416 : ∀ a, (![0, 416] : Fin 2 → Nat) a + S512x16.size a ≤ S512x1024.size a
  slices_S128x1024_o0_416_S128x16 : S128x1024.Slices ![0, 416] S128x16
  inb_S128x64_S128x1_0_26 : ∀ a, (![0, 26] : Fin 2 → Nat) a + S128x1.size a ≤ S128x64.size a
  inb_S512x1024_S512x16_0_432 : ∀ a, (![0, 432] : Fin 2 → Nat) a + S512x16.size a ≤ S512x1024.size a
  slices_S128x1024_o0_432_S128x16 : S128x1024.Slices ![0, 432] S128x16
  inb_S128x64_S128x1_0_27 : ∀ a, (![0, 27] : Fin 2 → Nat) a + S128x1.size a ≤ S128x64.size a
  inb_S512x1024_S512x16_0_448 : ∀ a, (![0, 448] : Fin 2 → Nat) a + S512x16.size a ≤ S512x1024.size a
  slices_S128x1024_o0_448_S128x16 : S128x1024.Slices ![0, 448] S128x16
  inb_S128x64_S128x1_0_28 : ∀ a, (![0, 28] : Fin 2 → Nat) a + S128x1.size a ≤ S128x64.size a
  inb_S512x1024_S512x16_0_464 : ∀ a, (![0, 464] : Fin 2 → Nat) a + S512x16.size a ≤ S512x1024.size a
  slices_S128x1024_o0_464_S128x16 : S128x1024.Slices ![0, 464] S128x16
  inb_S128x64_S128x1_0_29 : ∀ a, (![0, 29] : Fin 2 → Nat) a + S128x1.size a ≤ S128x64.size a
  inb_S512x1024_S512x16_0_480 : ∀ a, (![0, 480] : Fin 2 → Nat) a + S512x16.size a ≤ S512x1024.size a
  slices_S128x1024_o0_480_S128x16 : S128x1024.Slices ![0, 480] S128x16
  inb_S128x64_S128x1_0_30 : ∀ a, (![0, 30] : Fin 2 → Nat) a + S128x1.size a ≤ S128x64.size a
  inb_S512x1024_S512x16_0_496 : ∀ a, (![0, 496] : Fin 2 → Nat) a + S512x16.size a ≤ S512x1024.size a
  slices_S128x1024_o0_496_S128x16 : S128x1024.Slices ![0, 496] S128x16
  inb_S128x64_S128x1_0_31 : ∀ a, (![0, 31] : Fin 2 → Nat) a + S128x1.size a ≤ S128x64.size a
  inb_S512x1024_S512x16_0_512 : ∀ a, (![0, 512] : Fin 2 → Nat) a + S512x16.size a ≤ S512x1024.size a
  slices_S128x1024_o0_512_S128x16 : S128x1024.Slices ![0, 512] S128x16
  inb_S128x64_S128x1_0_32 : ∀ a, (![0, 32] : Fin 2 → Nat) a + S128x1.size a ≤ S128x64.size a
  inb_S512x1024_S512x16_0_528 : ∀ a, (![0, 528] : Fin 2 → Nat) a + S512x16.size a ≤ S512x1024.size a
  slices_S128x1024_o0_528_S128x16 : S128x1024.Slices ![0, 528] S128x16
  inb_S128x64_S128x1_0_33 : ∀ a, (![0, 33] : Fin 2 → Nat) a + S128x1.size a ≤ S128x64.size a
  inb_S512x1024_S512x16_0_544 : ∀ a, (![0, 544] : Fin 2 → Nat) a + S512x16.size a ≤ S512x1024.size a
  slices_S128x1024_o0_544_S128x16 : S128x1024.Slices ![0, 544] S128x16
  inb_S128x64_S128x1_0_34 : ∀ a, (![0, 34] : Fin 2 → Nat) a + S128x1.size a ≤ S128x64.size a
  inb_S512x1024_S512x16_0_560 : ∀ a, (![0, 560] : Fin 2 → Nat) a + S512x16.size a ≤ S512x1024.size a
  slices_S128x1024_o0_560_S128x16 : S128x1024.Slices ![0, 560] S128x16
  inb_S128x64_S128x1_0_35 : ∀ a, (![0, 35] : Fin 2 → Nat) a + S128x1.size a ≤ S128x64.size a
  inb_S512x1024_S512x16_0_576 : ∀ a, (![0, 576] : Fin 2 → Nat) a + S512x16.size a ≤ S512x1024.size a
  slices_S128x1024_o0_576_S128x16 : S128x1024.Slices ![0, 576] S128x16
  inb_S128x64_S128x1_0_36 : ∀ a, (![0, 36] : Fin 2 → Nat) a + S128x1.size a ≤ S128x64.size a
  inb_S512x1024_S512x16_0_592 : ∀ a, (![0, 592] : Fin 2 → Nat) a + S512x16.size a ≤ S512x1024.size a
  slices_S128x1024_o0_592_S128x16 : S128x1024.Slices ![0, 592] S128x16
  inb_S128x64_S128x1_0_37 : ∀ a, (![0, 37] : Fin 2 → Nat) a + S128x1.size a ≤ S128x64.size a
  inb_S512x1024_S512x16_0_608 : ∀ a, (![0, 608] : Fin 2 → Nat) a + S512x16.size a ≤ S512x1024.size a
  slices_S128x1024_o0_608_S128x16 : S128x1024.Slices ![0, 608] S128x16
  inb_S128x64_S128x1_0_38 : ∀ a, (![0, 38] : Fin 2 → Nat) a + S128x1.size a ≤ S128x64.size a
  inb_S512x1024_S512x16_0_624 : ∀ a, (![0, 624] : Fin 2 → Nat) a + S512x16.size a ≤ S512x1024.size a
  slices_S128x1024_o0_624_S128x16 : S128x1024.Slices ![0, 624] S128x16
  inb_S128x64_S128x1_0_39 : ∀ a, (![0, 39] : Fin 2 → Nat) a + S128x1.size a ≤ S128x64.size a
  inb_S512x1024_S512x16_0_640 : ∀ a, (![0, 640] : Fin 2 → Nat) a + S512x16.size a ≤ S512x1024.size a
  slices_S128x1024_o0_640_S128x16 : S128x1024.Slices ![0, 640] S128x16
  inb_S128x64_S128x1_0_40 : ∀ a, (![0, 40] : Fin 2 → Nat) a + S128x1.size a ≤ S128x64.size a
  inb_S512x1024_S512x16_0_656 : ∀ a, (![0, 656] : Fin 2 → Nat) a + S512x16.size a ≤ S512x1024.size a
  slices_S128x1024_o0_656_S128x16 : S128x1024.Slices ![0, 656] S128x16
  inb_S128x64_S128x1_0_41 : ∀ a, (![0, 41] : Fin 2 → Nat) a + S128x1.size a ≤ S128x64.size a
  inb_S512x1024_S512x16_0_672 : ∀ a, (![0, 672] : Fin 2 → Nat) a + S512x16.size a ≤ S512x1024.size a
  slices_S128x1024_o0_672_S128x16 : S128x1024.Slices ![0, 672] S128x16
  inb_S128x64_S128x1_0_42 : ∀ a, (![0, 42] : Fin 2 → Nat) a + S128x1.size a ≤ S128x64.size a
  inb_S512x1024_S512x16_0_688 : ∀ a, (![0, 688] : Fin 2 → Nat) a + S512x16.size a ≤ S512x1024.size a
  slices_S128x1024_o0_688_S128x16 : S128x1024.Slices ![0, 688] S128x16
  inb_S128x64_S128x1_0_43 : ∀ a, (![0, 43] : Fin 2 → Nat) a + S128x1.size a ≤ S128x64.size a
  inb_S512x1024_S512x16_0_704 : ∀ a, (![0, 704] : Fin 2 → Nat) a + S512x16.size a ≤ S512x1024.size a
  slices_S128x1024_o0_704_S128x16 : S128x1024.Slices ![0, 704] S128x16
  inb_S128x64_S128x1_0_44 : ∀ a, (![0, 44] : Fin 2 → Nat) a + S128x1.size a ≤ S128x64.size a
  inb_S512x1024_S512x16_0_720 : ∀ a, (![0, 720] : Fin 2 → Nat) a + S512x16.size a ≤ S512x1024.size a
  slices_S128x1024_o0_720_S128x16 : S128x1024.Slices ![0, 720] S128x16
  inb_S128x64_S128x1_0_45 : ∀ a, (![0, 45] : Fin 2 → Nat) a + S128x1.size a ≤ S128x64.size a
  inb_S512x1024_S512x16_0_736 : ∀ a, (![0, 736] : Fin 2 → Nat) a + S512x16.size a ≤ S512x1024.size a
  slices_S128x1024_o0_736_S128x16 : S128x1024.Slices ![0, 736] S128x16
  inb_S128x64_S128x1_0_46 : ∀ a, (![0, 46] : Fin 2 → Nat) a + S128x1.size a ≤ S128x64.size a
  inb_S512x1024_S512x16_0_752 : ∀ a, (![0, 752] : Fin 2 → Nat) a + S512x16.size a ≤ S512x1024.size a
  slices_S128x1024_o0_752_S128x16 : S128x1024.Slices ![0, 752] S128x16
  inb_S128x64_S128x1_0_47 : ∀ a, (![0, 47] : Fin 2 → Nat) a + S128x1.size a ≤ S128x64.size a
  inb_S512x1024_S512x16_0_768 : ∀ a, (![0, 768] : Fin 2 → Nat) a + S512x16.size a ≤ S512x1024.size a
  slices_S128x1024_o0_768_S128x16 : S128x1024.Slices ![0, 768] S128x16
  inb_S128x64_S128x1_0_48 : ∀ a, (![0, 48] : Fin 2 → Nat) a + S128x1.size a ≤ S128x64.size a
  inb_S512x1024_S512x16_0_784 : ∀ a, (![0, 784] : Fin 2 → Nat) a + S512x16.size a ≤ S512x1024.size a
  slices_S128x1024_o0_784_S128x16 : S128x1024.Slices ![0, 784] S128x16
  inb_S128x64_S128x1_0_49 : ∀ a, (![0, 49] : Fin 2 → Nat) a + S128x1.size a ≤ S128x64.size a
  inb_S512x1024_S512x16_0_800 : ∀ a, (![0, 800] : Fin 2 → Nat) a + S512x16.size a ≤ S512x1024.size a
  slices_S128x1024_o0_800_S128x16 : S128x1024.Slices ![0, 800] S128x16
  inb_S128x64_S128x1_0_50 : ∀ a, (![0, 50] : Fin 2 → Nat) a + S128x1.size a ≤ S128x64.size a
  inb_S512x1024_S512x16_0_816 : ∀ a, (![0, 816] : Fin 2 → Nat) a + S512x16.size a ≤ S512x1024.size a
  slices_S128x1024_o0_816_S128x16 : S128x1024.Slices ![0, 816] S128x16
  inb_S128x64_S128x1_0_51 : ∀ a, (![0, 51] : Fin 2 → Nat) a + S128x1.size a ≤ S128x64.size a
  inb_S512x1024_S512x16_0_832 : ∀ a, (![0, 832] : Fin 2 → Nat) a + S512x16.size a ≤ S512x1024.size a
  slices_S128x1024_o0_832_S128x16 : S128x1024.Slices ![0, 832] S128x16
  inb_S128x64_S128x1_0_52 : ∀ a, (![0, 52] : Fin 2 → Nat) a + S128x1.size a ≤ S128x64.size a
  inb_S512x1024_S512x16_0_848 : ∀ a, (![0, 848] : Fin 2 → Nat) a + S512x16.size a ≤ S512x1024.size a
  slices_S128x1024_o0_848_S128x16 : S128x1024.Slices ![0, 848] S128x16
  inb_S128x64_S128x1_0_53 : ∀ a, (![0, 53] : Fin 2 → Nat) a + S128x1.size a ≤ S128x64.size a
  inb_S512x1024_S512x16_0_864 : ∀ a, (![0, 864] : Fin 2 → Nat) a + S512x16.size a ≤ S512x1024.size a
  slices_S128x1024_o0_864_S128x16 : S128x1024.Slices ![0, 864] S128x16
  inb_S128x64_S128x1_0_54 : ∀ a, (![0, 54] : Fin 2 → Nat) a + S128x1.size a ≤ S128x64.size a
  inb_S512x1024_S512x16_0_880 : ∀ a, (![0, 880] : Fin 2 → Nat) a + S512x16.size a ≤ S512x1024.size a
  slices_S128x1024_o0_880_S128x16 : S128x1024.Slices ![0, 880] S128x16
  inb_S128x64_S128x1_0_55 : ∀ a, (![0, 55] : Fin 2 → Nat) a + S128x1.size a ≤ S128x64.size a
  inb_S512x1024_S512x16_0_896 : ∀ a, (![0, 896] : Fin 2 → Nat) a + S512x16.size a ≤ S512x1024.size a
  slices_S128x1024_o0_896_S128x16 : S128x1024.Slices ![0, 896] S128x16
  inb_S128x64_S128x1_0_56 : ∀ a, (![0, 56] : Fin 2 → Nat) a + S128x1.size a ≤ S128x64.size a
  inb_S512x1024_S512x16_0_912 : ∀ a, (![0, 912] : Fin 2 → Nat) a + S512x16.size a ≤ S512x1024.size a
  slices_S128x1024_o0_912_S128x16 : S128x1024.Slices ![0, 912] S128x16
  inb_S128x64_S128x1_0_57 : ∀ a, (![0, 57] : Fin 2 → Nat) a + S128x1.size a ≤ S128x64.size a
  inb_S512x1024_S512x16_0_928 : ∀ a, (![0, 928] : Fin 2 → Nat) a + S512x16.size a ≤ S512x1024.size a
  slices_S128x1024_o0_928_S128x16 : S128x1024.Slices ![0, 928] S128x16
  inb_S128x64_S128x1_0_58 : ∀ a, (![0, 58] : Fin 2 → Nat) a + S128x1.size a ≤ S128x64.size a
  inb_S512x1024_S512x16_0_944 : ∀ a, (![0, 944] : Fin 2 → Nat) a + S512x16.size a ≤ S512x1024.size a
  slices_S128x1024_o0_944_S128x16 : S128x1024.Slices ![0, 944] S128x16
  inb_S128x64_S128x1_0_59 : ∀ a, (![0, 59] : Fin 2 → Nat) a + S128x1.size a ≤ S128x64.size a
  inb_S512x1024_S512x16_0_960 : ∀ a, (![0, 960] : Fin 2 → Nat) a + S512x16.size a ≤ S512x1024.size a
  slices_S128x1024_o0_960_S128x16 : S128x1024.Slices ![0, 960] S128x16
  inb_S128x64_S128x1_0_60 : ∀ a, (![0, 60] : Fin 2 → Nat) a + S128x1.size a ≤ S128x64.size a
  inb_S512x1024_S512x16_0_976 : ∀ a, (![0, 976] : Fin 2 → Nat) a + S512x16.size a ≤ S512x1024.size a
  slices_S128x1024_o0_976_S128x16 : S128x1024.Slices ![0, 976] S128x16
  inb_S128x64_S128x1_0_61 : ∀ a, (![0, 61] : Fin 2 → Nat) a + S128x1.size a ≤ S128x64.size a
  inb_S512x1024_S512x16_0_992 : ∀ a, (![0, 992] : Fin 2 → Nat) a + S512x16.size a ≤ S512x1024.size a
  slices_S128x1024_o0_992_S128x16 : S128x1024.Slices ![0, 992] S128x16
  inb_S128x64_S128x1_0_62 : ∀ a, (![0, 62] : Fin 2 → Nat) a + S128x1.size a ≤ S128x64.size a
  inb_S512x1024_S512x16_0_1008 : ∀ a, (![0, 1008] : Fin 2 → Nat) a + S512x16.size a ≤ S512x1024.size a
  slices_S128x1024_o0_1008_S128x16 : S128x1024.Slices ![0, 1008] S128x16
  inb_S128x64_S128x1_0_63 : ∀ a, (![0, 63] : Fin 2 → Nat) a + S128x1.size a ≤ S128x64.size a
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x1024.size a ≤ S512x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S512x1.size a
  hwx0_2 : ∀ i : grid0.Coords, EltTy.bits .f32 = 32 ∨ (Rect.block (s := S512x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S512x64.size a
  hwx0_3 : ∀ i : grid0.Coords, EltTy.bits .f32 = 32 ∨ (Rect.block (s := S512x64) S128x64.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S1x512 : Shape := ⟨2, ![1, 512]⟩
abbrev S512x64x16 : Shape := ⟨3, ![512, 64, 16]⟩
abbrev S512x1024 : Shape := ⟨2, ![512, 1024]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512 : Shape := ⟨1, ![512]⟩
abbrev S512x1 : Shape := ⟨2, ![512, 1]⟩
abbrev S512x64 : Shape := ⟨2, ![512, 64]⟩

abbrev nBuf : Space → Nat
  | .hbm => 24
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1x512, .f32⟩
  | .hbm, ⟨2, _⟩ => ⟨S512x64x16, .f32⟩
  | .hbm, ⟨3, _⟩ => ⟨S512x1024, .f32⟩
  | .hbm, ⟨4, _⟩ => ⟨S512x1024, .f32⟩
  | .hbm, ⟨5, _⟩ => ⟨S512x64x16, .f32⟩
  | .hbm, ⟨6, _⟩ => ⟨S1x512x64x16, .f32⟩
  | .hbm, ⟨7, _⟩ => ⟨S512x1x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S512x512x64x16, .f32⟩
  | .hbm, ⟨12, _⟩ => ⟨S_, .f32⟩
  | .hbm, ⟨13, _⟩ => ⟨S512x512x64, .f32⟩
  | .hbm, ⟨14, _⟩ => ⟨S512x512x64, .f32⟩
  | .hbm, ⟨15, _⟩ => ⟨S512x512x64, .f32⟩
  | .hbm, ⟨16, _⟩ => ⟨S512, .f32⟩
  | .hbm, ⟨17, _⟩ => ⟨S512x1, .f32⟩
  | .hbm, ⟨18, _⟩ => ⟨S_, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  shapeCasts_S512x64x16_S512x1024 : S512x64x16.ShapeCasts S512x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  shapeCasts_S1x512_S512 : S1x512.ShapeCasts S512
  bcast_S512_S512x1_0 : S512.BroadcastsInDim S512x1 (![0] : Fin 1 → Fin S512x1.rank)
  reducesTo_S512x512x64_S512x64_d0 : S512x512x64.ReducesTo [0] S512x64
  bcast_S512x1_S512x64_0_1 : S512x1.BroadcastsInDim S512x64 (![0, 1] : Fin 2 → Fin S512x64.rank)
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.Pairwise.lean ====
/-
  Pairwise L1 similarity, one output channel at a time.

  With `P = x · tf` the projected batch (`tf` the weight tensor flattened to 512 × 1024, channel `o` owning the
  sixteen lanes `16 o … 16 o + 15`), row `r` and channel `o` of the result are

      w r · ∑ₐ exp (−∑ₖ |P r (16 o + k) − P a (16 o + k)|) − w r.

  `G` states that as one function of the three arrays. `column` is the same quantity as a chain of vector
  operations on a tile of 128 rows: the tile's sixteen lanes of the channel against all 512 rows' sixteen lanes, both
  transposed so that the lane index leads, differenced by broadcasting, absolute values summed over the leading axis,
  negated by subtracting from zero, exponentiated, summed along the rows, and closed with the weight column.
  `column_apply` reads the chain at a row of the tile.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Pairwise

open Idealize.ShloMosaic Idealize.ShloMosaic.ValueIdx

/-! ## The specification -/

/-- Lane `k` of channel `o` in the flattened projection. -/
def lane (o : Fin 64) (k : Fin 16) : Fin 1024 := ⟨16 * o.val + k.val, by omega⟩

/-- The projection `x · tf` at row `r`, lane `n`. -/
def proj (x : (⟨2, ![512, 512]⟩ : Shape).Idx → EReal) (tf : (⟨2, ![512, 1024]⟩ : Shape).Idx → EReal) (r : Fin 512) (n : Fin 1024) :
    EReal :=
  ∑ c : Fin 512, x (ix2 r c) * tf (ix2 c n)

/-- The L1 distance between rows `r` and `a` of the projection, inside channel `o`. -/
def dist (x : (⟨2, ![512, 512]⟩ : Shape).Idx → EReal) (tf : (⟨2, ![512, 1024]⟩ : Shape).Idx → EReal) (o : Fin 64) (r a : Fin 512) :
    EReal :=
  ∑ k : Fin 16, max (proj x tf r (lane o k) - proj x tf a (lane o k)) (-(proj x tf r (lane o k) - proj x tf a (lane o k)))

/-- Row `r`, channel `o` of the result. -/
def entry (x : (⟨2, ![512, 512]⟩ : Shape).Idx → EReal) (w : (⟨2, ![1, 512]⟩ : Shape).Idx → EReal)
    (tf : (⟨2, ![512, 1024]⟩ : Shape).Idx → EReal) (r : Fin 512) (o : Fin 64) : EReal :=
  w (ix2 0 r) * (∑ a : Fin 512, Ideal.exp (-(dist x tf o r a))) - w (ix2 0 r)

/-- The whole result as one function of the three arrays. -/
def G (x : (⟨2, ![512, 512]⟩ : Shape).Idx → EReal) (w : (⟨2, ![1, 512]⟩ : Shape).Idx → EReal)
    (tf : (⟨2, ![512, 1024]⟩ : Shape).Idx → EReal) : (⟨2, ![512, 64]⟩ : Shape).Idx → EReal :=
  fun i => entry x w tf ⟨(i 0).val, (i 0).isLt⟩ ⟨(i 1).val, (i 1).isLt⟩

theorem G_ix2 (x : (⟨2, ![512, 512]⟩ : Shape).Idx → EReal) (w : (⟨2, ![1, 512]⟩ : Shape).Idx → EReal)
    (tf : (⟨2, ![512, 1024]⟩ : Shape).Idx → EReal) (r : Fin 512) (o : Fin 64) :
    G x w tf (ix2 r o) = entry x w tf r o := rfl

/-! ## One channel of a 128-row tile, as a chain of vector operations -/

section Chain

variable {F : FTy → Type} [FloatOps F]

/-- The chain, at any float instance: `wc` the tile's weight column, `a` the tile's sixteen lanes of the channel,
    `b` all rows' sixteen lanes of the channel. -/
def column
    (hTb : (⟨2, ![512, 16]⟩ : Shape).Transposes [1, 0] ⟨2, ![16, 512]⟩)
    (hTa : (⟨2, ![128, 16]⟩ : Shape).Transposes [1, 0] ⟨2, ![16, 128]⟩)
    (hCa : (⟨2, ![16, 128]⟩ : Shape).ShapeCasts ⟨3, ![16, 128, 1]⟩)
    (hCb : (⟨2, ![16, 512]⟩ : Shape).ShapeCasts ⟨3, ![16, 1, 512]⟩)
    (hBa : (⟨3, ![16, 128, 1]⟩ : Shape).Broadcasts ⟨3, ![16, 128, 512]⟩)
    (hBb : (⟨3, ![16, 1, 512]⟩ : Shape).Broadcasts ⟨3, ![16, 128, 512]⟩)
    (hR0 : (⟨3, ![16, 128, 512]⟩ : Shape).Reduces [0] ⟨2, ![128, 512]⟩)
    (hR1 : (⟨2, ![128, 512]⟩ : Shape).Reduces [1] ⟨1, ![128]⟩)
    (hC1 : (⟨1, ![128]⟩ : Shape).ShapeCasts ⟨2, ![128, 1]⟩)
    (wc : FVec F ⟨2, ![128, 1]⟩ .f32) (a : FVec F ⟨2, ![128, 16]⟩ .f32) (b : FVec F ⟨2, ![512, 16]⟩ .f32) :
    FVec F ⟨2, ![128, 1]⟩ .f32 :=
  subf (mulf wc (shapeCast ⟨2, ![128, 1]⟩
    (multiReduction .add [1] ⟨1, ![128]⟩
      (exp (subf (broadcast ⟨2, ![128, 512]⟩ (Scalar.ofBits .f32 0x00000000#32))
        (multiReduction .add [0] ⟨2, ![128, 512]⟩
          (absf (subf
            (broadcastTo ⟨3, ![16, 128, 512]⟩ (shapeCast ⟨3, ![16, 128, 1]⟩ (transpose ⟨2, ![16, 128]⟩ [1, 0] a hTa) hCa) hBa)
            (broadcastTo ⟨3, ![16, 128, 512]⟩ (shapeCast ⟨3, ![16, 1, 512]⟩ (transpose ⟨2, ![16, 512]⟩ [1, 0] b hTb) hCb) hBb)))
          0x00000000#32 hR0 (.inl rfl) rfl)))
      0x00000000#32 hR1 (.inl rfl) rfl) hC1)) wc

end Chain

/-! ## The chain read at a row, at the extended reals -/

section Read

variable
    (hTb : (⟨2, ![512, 16]⟩ : Shape).Transposes [1, 0] ⟨2, ![16, 512]⟩)
    (hTa : (⟨2, ![128, 16]⟩ : Shape).Transposes [1, 0] ⟨2, ![16, 128]⟩)
    (hCa : (⟨2, ![16, 128]⟩ : Shape).ShapeCasts ⟨3, ![16, 128, 1]⟩)
    (hCb : (⟨2, ![16, 512]⟩ : Shape).ShapeCasts ⟨3, ![16, 1, 512]⟩)
    (hBa : (⟨3, ![16, 128, 1]⟩ : Shape).Broadcasts ⟨3, ![16, 128, 512]⟩)
    (hBb : (⟨3, ![16, 1, 512]⟩ : Shape).Broadcasts ⟨3, ![16, 128, 512]⟩)
    (hR0 : (⟨3, ![16, 128, 512]⟩ : Shape).Reduces [0] ⟨2, ![128, 512]⟩)
    (hR1 : (⟨2, ![128, 512]⟩ : Shape).Reduces [1] ⟨1, ![128]⟩)
    (hC1 : (⟨1, ![128]⟩ : Shape).ShapeCasts ⟨2, ![128, 1]⟩)

/-- The tile's lanes, transposed, cast to a trailing unit axis and broadcast along the rows: at `(k, p, i)` the
    tile's row `p`, lane `k`. -/
theorem tileSide_apply (a : FVec Ideal ⟨2, ![128, 16]⟩ .f32) (k : Fin 16) (p : Fin 128) (i : Fin 512) :
    broadcastTo ⟨3, ![16, 128, 512]⟩ (shapeCast ⟨3, ![16, 128, 1]⟩ (transpose ⟨2, ![16, 128]⟩ [1, 0] a hTa) hCa) hBa (ix3 k p i)
      = a (ix2 p k) := by
  refine (broadcastTo_apply _ hBa (ix3 k p i) (ix3 k p (0 : Fin 1)) fun c => ?_).trans ?_
  · match c with
    | ⟨0, _⟩ => exact (if_neg (show (16 : Nat) ≠ 1 by decide)).symm
    | ⟨1, _⟩ => exact (if_neg (show (128 : Nat) ≠ 1 by decide)).symm
    | ⟨2, _⟩ => exact (if_pos rfl).symm
  refine (shapeCast_apply _ hCa (ix3 k p (0 : Fin 1)) (ix2 k p) ?_).trans ?_
  · rw [Shape.rowMajor_val_two, Shape.rowMajor_val_three]
    show k.val * 128 + p.val = (k.val * 128 + p.val) * 1 + 0
    omega
  exact transpose_ix2_apply a hTa k p

/-- All rows' lanes, transposed, cast to a middle unit axis and broadcast along the tile: at `(k, p, i)` row `i`,
    lane `k`. -/
theorem allSide_apply (b : FVec Ideal ⟨2, ![512, 16]⟩ .f32) (k : Fin 16) (p : Fin 128) (i : Fin 512) :
    broadcastTo ⟨3, ![16, 128, 512]⟩ (shapeCast ⟨3, ![16, 1, 512]⟩ (transpose ⟨2, ![16, 512]⟩ [1, 0] b hTb) hCb) hBb (ix3 k p i)
      = b (ix2 i k) := by
  refine (broadcastTo_apply _ hBb (ix3 k p i) (ix3 k (0 : Fin 1) i) fun c => ?_).trans ?_
  · match c with
    | ⟨0, _⟩ => exact (if_neg (show (16 : Nat) ≠ 1 by decide)).symm
    | ⟨1, _⟩ => exact (if_pos rfl).symm
    | ⟨2, _⟩ => exact (if_neg (show (512 : Nat) ≠ 1 by decide)).symm
  refine (shapeCast_apply _ hCb (ix3 k (0 : Fin 1) i) (ix2 k i) ?_).trans ?_
  · rw [Shape.rowMajor_val_two, Shape.rowMajor_val_three]
    show k.val * 512 + i.val = (k.val * 1 + 0) * 512 + i.val
    omega
  exact transpose_ix2_apply b hTb k i

/-- Lane `k` put back in front of `(p, i)`. -/
theorem lift_lead (p : Fin 128) (i : Fin 512) (k : Fin 16) : hR0.lift (ix2 p i) k = ix3 k p i :=
  funext fun c => Fin.ext (by match c with | ⟨0, _⟩ => rfl | ⟨1, _⟩ => rfl | ⟨2, _⟩ => rfl)

/-- Row `i` put back behind `p`. -/
theorem lift_row (p : Fin 128) (i : Fin 512) : hR1.lift (ix1 p) i = ix2 p i :=
  funext fun c => Fin.ext (by match c with | ⟨0, _⟩ => rfl | ⟨1, _⟩ => rfl)

/-- A sum over the leading axis of a `[16, 128, 512]` vector from the zero word, at `(p, i)`. -/
theorem leadSum_apply (src : FVec Ideal ⟨3, ![16, 128, 512]⟩ .f32) (hφ : FKind.Formats .f32)
    (hacc : (0x00000000#32 : BitVec 32) = 0x00000000#32) (p : Fin 128) (i : Fin 512) :
    multiReduction .add [0] ⟨2, ![128, 512]⟩ src 0x00000000#32 hR0 hφ hacc (ix2 p i) = ∑ k : Fin 16, src (ix3 k p i) := by
  refine (Ideal.multiReduction_add_single src 0x00000000#32 hR0 hφ hacc (ix2 p i)).trans ?_
  exact Finset.sum_congr rfl fun k _ => congrArg src (lift_lead hR0 p i k)

/-- A sum along the rows of a `[128, 512]` vector from the zero word, at `p`. -/
theorem rowSum_apply (src : FVec Ideal ⟨2, ![128, 512]⟩ .f32) (hφ : FKind.Formats .f32)
    (hacc : (0x00000000#32 : BitVec 32) = 0x00000000#32) (p : Fin 128) :
    multiReduction .add [1] ⟨1, ![128]⟩ src 0x00000000#32 hR1 hφ hacc (ix1 p) = ∑ i : Fin 512, src (ix2 p i) := by
  refine (Ideal.multiReduction_add_single src 0x00000000#32 hR1 hφ hacc (ix1 p)).trans ?_
  exact Finset.sum_congr rfl fun i _ => congrArg src (lift_row hR1 p i)

/-- The absolute difference of the two broadcast sides at `(k, p, i)`: the tile's row `p` against row `i`, lane `k`. -/
theorem absDiff_apply (a : FVec Ideal ⟨2, ![128, 16]⟩ .f32) (b : FVec Ideal ⟨2, ![512, 16]⟩ .f32) (k : Fin 16) (p : Fin 128)
    (i : Fin 512) :
    absf (subf
        (broadcastTo ⟨3, ![16, 128, 512]⟩ (shapeCast ⟨3, ![16, 128, 1]⟩ (transpose ⟨2, ![16, 128]⟩ [1, 0] a hTa) hCa) hBa)
        (broadcastTo ⟨3, ![16, 128, 512]⟩ (shapeCast ⟨3, ![16, 1, 512]⟩ (transpose ⟨2, ![16, 512]⟩ [1, 0] b hTb) hCb) hBb))
      (ix3 k p i)
      = max (a (ix2 p k) - b (ix2 i k)) (-(a (ix2 p k) - b (ix2 i k))) := by
  show max (broadcastTo ⟨3, ![16, 128, 512]⟩ (shapeCast ⟨3, ![16, 128, 1]⟩ (transpose ⟨2, ![16, 128]⟩ [1, 0] a hTa) hCa) hBa (ix3 k p i)
        - broadcastTo ⟨3, ![16, 128, 512]⟩ (shapeCast ⟨3, ![16, 1, 512]⟩ (transpose ⟨2, ![16, 512]⟩ [1, 0] b hTb) hCb) hBb (ix3 k p i))
      (-(broadcastTo ⟨3, ![16, 128, 512]⟩ (shapeCast ⟨3, ![16, 128, 1]⟩ (transpose ⟨2, ![16, 128]⟩ [1, 0] a hTa) hCa) hBa (ix3 k p i)
        - broadcastTo ⟨3, ![16, 128, 512]⟩ (shapeCast ⟨3, ![16, 1, 512]⟩ (transpose ⟨2, ![16, 512]⟩ [1, 0] b hTb) hCb) hBb (ix3 k p i))) = _
  rw [tileSide_apply hTa hCa hBa a k p i, allSide_apply hTb hCb hBb b k p i]

/-- `exp` of zero minus a sum over the leading axis, at `(p, i)`. -/
theorem expNeg_apply (src : FVec Ideal ⟨3, ![16, 128, 512]⟩ .f32) (hφ : FKind.Formats .f32)
    (hacc : (0x00000000#32 : BitVec 32) = 0x00000000#32) (p : Fin 128) (i : Fin 512) :
    exp (subf (broadcast ⟨2, ![128, 512]⟩ (Scalar.ofBits (F := Ideal) .f32 0x00000000#32))
        (multiReduction .add [0] ⟨2, ![128, 512]⟩ src 0x00000000#32 hR0 hφ hacc)) (ix2 p i)
      = Ideal.exp (0 - ∑ k : Fin 16, src (ix3 k p i)) := by
  show Ideal.exp (Ideal.ofBits .f32 0x00000000#32 - multiReduction .add [0] ⟨2, ![128, 512]⟩ src 0x00000000#32 hR0 hφ hacc (ix2 p i)) = _
  rw [Ideal.ofBits_zero_f32, leadSum_apply hR0 src hφ hacc p i]

/-- The chain at row `p` of the tile: the weight times the sum over all rows `i` of `exp` of zero minus the L1
    distance between the tile's row `p` and row `i`, minus the weight. -/
theorem column_apply (wc : FVec Ideal ⟨2, ![128, 1]⟩ .f32) (a : FVec Ideal ⟨2, ![128, 16]⟩ .f32) (b : FVec Ideal ⟨2, ![512, 16]⟩ .f32)
    (p : Fin 128) (u : Fin 1) :
    column (F := Ideal) hTb hTa hCa hCb hBa hBb hR0 hR1 hC1 wc a b (ix2 p u)
      = wc (ix2 p u) * (∑ i : Fin 512, Ideal.exp (0 - ∑ k : Fin 16, max (a (ix2 p k) - b (ix2 i k)) (-(a (ix2 p k) - b (ix2 i k)))))
        - wc (ix2 p u) := by
  unfold column
  show FloatOps.subf (FloatOps.mulf (wc (ix2 p u)) (shapeCast ⟨2, ![128, 1]⟩ _ hC1 (ix2 p u))) (wc (ix2 p u)) = _
  have hcast : ∀ v : (⟨1, ![128]⟩ : Shape).Idx → EReal, shapeCast ⟨2, ![128, 1]⟩ v hC1 (ix2 p u) = v (ix1 p) := fun v =>
    shapeCast_apply v hC1 (ix2 p u) (ix1 p) (by
      rw [Shape.rowMajor_val_one, Shape.rowMajor_val_two]
      have hu : u.val = 0 := by omega
      show p.val = p.val * 1 + u.val
      omega)
  refine (congrArg (fun s => FloatOps.subf (FloatOps.mulf (wc (ix2 p u)) s) (wc (ix2 p u)))
    ((hcast _).trans (rowSum_apply hR1 _ _ _ p))).trans ?_
  show wc (ix2 p u) * _ - wc (ix2 p u) = _
  refine congrArg (fun s => wc (ix2 p u) * s - wc (ix2 p u)) (Finset.sum_congr rfl fun i _ => ?_)
  refine (expNeg_apply hR0 _ _ _ p i).trans ?_
  exact congrArg (fun s => Ideal.exp (0 - s)) (Finset.sum_congr rfl fun k _ => absDiff_apply hTb hTa hCa hCb hBa hBb a b k p i)

end Read

end Cert.Pairwise

end
-- ==== Proof.TileBlock.lean ====
/-
  What one grid point leaves in its output block.

  The body first stores the projected batch `x · tf` (a 512 × 1024 product) into scratch, reads back the 128 rows of
  its own tile, and then, channel by channel, reads the channel's sixteen lanes of ALL rows back from scratch and stores one
  128 × 1 column of the block. So the block is 64 column pieces, and column `o` is the column chain of
  `Cert.Pairwise` applied to the tile's weight column, the tile's lanes `16 o … 16 o + 15` and all rows' same lanes.
  `blockFn` states that as ONE function of the block index; every piece is its restriction to the piece's rectangle
  (`piece_eq`, for any channel number), so the pieces' canonical contents are `blockFn` (`out_eq`).
-/
import proofs.«170660_j4587025072595_1_alg».proof.Proof.Gen.KernelIdeal.Frame
import proofs.«170660_j4587025072595_1_alg».proof.Proof.Pairwise
import Idealize.ShloMosaic.Lib.Pipeline.Value
import Idealize.ShloMosaic.Lib.ValueLayout
import Idealize.ShloMosaic.Lib.Tactic

set_option maxRecDepth 16384

noncomputable section

namespace Cert.KernelIdeal.Block

open Cert.KernelIdeal Cert.KernelIdeal.Gen Idealize.ShloMosaic Idealize.ShloMosaic.TcCoe
open Idealize.ShloMosaic.Tactic Idealize.ShloMosaic.ValueIdx Idealize.SL.Sem

variable {F : FTy → Type} [FloatOps F]

theorem hz : (![0, 0] : Fin 2 → Nat) = fun _ => 0 := funext fun a => by fin_cases a <;> rfl

/-- One channel of a tile, at this program's shapes. -/
abbrev col (wc : FVec F S128x1 .f32) (a : FVec F S128x16 .f32) (b : FVec F S512x16 .f32) : FVec F S128x1 .f32 :=
  Cert.Pairwise.column transposes_S512x16_p1_0_S16x512 transposes_S128x16_p1_0_S16x128 shapeCasts_S16x128_S16x128x1
    shapeCasts_S16x512_S16x1x512 broadcasts_S16x128x1_S16x128x512 broadcasts_S16x1x512_S16x128x512
    reduces_S16x128x512_S128x512 reduces_S128x512_S128 shapeCasts_S128_S128x1 wc a b

/-- The tile's rows of the projection: the 128 rows at `off`. -/
abbrev tile (off : Fin 2 → Nat) (inb : ∀ a, off a + S128x1024.size a ≤ S512x1024.size a) (x0 : Vec F S512x512 .f32)
    (x1 : Vec F S512x1024 .f32) : Vec F S128x1024 .f32 :=
  View.ld (k0_pay2 x0 x1) (Rect.unit (s := S512x1024) off S128x1024.size inb)

/-- The block as one function of its index `y = (row, channel)`: the column chain on the tile's weight column, the
    tile's sixteen lanes of the channel and all rows' sixteen lanes of the channel, at the row. -/
def blockFn (off : Fin 2 → Nat) (inb : ∀ a, off a + S128x1024.size a ≤ S512x1024.size a) (x0 : Vec F S512x512 .f32)
    (x1 : Vec F S512x1024 .f32) (x2 : Vec F S128x1 .f32) (y : S128x64.Idx) : F .f32 :=
  col (k0_pay3 x2)
    (fun j => tile off inb x0 x1
      (ix2 ⟨(j 0).val, (j 0).isLt⟩ (Cert.Pairwise.lane ⟨(y 1).val, (y 1).isLt⟩ ⟨(j 1).val, (j 1).isLt⟩)))
    (fun j => k0_pay2 x0 x1
      (ix2 ⟨(j 0).val, (j 0).isLt⟩ (Cert.Pairwise.lane ⟨(y 1).val, (y 1).isLt⟩ ⟨(j 1).val, (j 1).isLt⟩)))
    (ix2 ⟨(y 0).val, (y 0).isLt⟩ 0)

/-- Channel `o`'s column piece is the block function on the piece's rectangle: the slice of the tile at lane offset
    `16 o` and the scratch read at lane offset `16 o` are the channel's lanes. -/
theorem piece_eq (off : Fin 2 → Nat) (inb : ∀ a, off a + S128x1024.size a ≤ S512x1024.size a) (x0 : Vec F S512x512 .f32)
    (x1 : Vec F S512x1024 .f32) (x2 : Vec F S128x1 .f32) (o : Nat)
    (inbO : ∀ a, (![0, o] : Fin 2 → Nat) a + S128x1.size a ≤ S128x64.size a)
    (hs : S128x1024.Slices ![0, 16 * o] S128x16)
    (inbS : ∀ a, (![0, 16 * o] : Fin 2 → Nat) a + S512x16.size a ≤ S512x1024.size a)
    (x : (Rect.unit (s := S128x64) ![0, o] S128x1.size inbO).shape.Idx) :
    blockFn off inb x0 x1 x2 ((Rect.unit (s := S128x64) ![0, o] S128x1.size inbO).emb x)
      = col (k0_pay3 x2) (extractStridedSlice S128x16 ![0, 16 * o] (tile off inb x0 x1) hs)
          (fun j => k0_pay2 x0 x1 ((Rect.unit (s := S512x1024) ![0, 16 * o] S512x16.size inbS).idx j)) x := by
  have hx1 : (x 1).val = 0 := by
    have h : (x 1).val < 1 := (x 1).isLt
    omega
  have hy0 : ((Rect.unit (s := S128x64) ![0, o] S128x1.size inbO).emb x 0).val = (x 0).val := by
    show 0 + 1 * (x 0).val = (x 0).val
    omega
  have hy1 : ((Rect.unit (s := S128x64) ![0, o] S128x1.size inbO).emb x 1).val = o := by
    show o + 1 * (x 1).val = o
    omega
  unfold blockFn
  refine congr (congr (congrArg (col (k0_pay3 x2)) ?_) ?_) ?_
  · funext j
    refine (extractStridedSlice_apply _ _ hs j _ fun a => ?_).symm
    match a with
    | ⟨0, _⟩ => show (j 0).val = 0 + (j 0).val; omega
    | ⟨1, _⟩ =>
      show 16 * ((Rect.unit (s := S128x64) ![0, o] S128x1.size inbO).emb x 1).val + (j 1).val = 16 * o + (j 1).val
      rw [hy1]
  · funext j
    refine congrArg (k0_pay2 x0 x1) (funext fun a => Fin.ext ?_)
    match a with
    | ⟨0, _⟩ => show (j 0).val = 0 + 1 * (j 0).val; omega
    | ⟨1, _⟩ =>
      show 16 * ((Rect.unit (s := S128x64) ![0, o] S128x1.size inbO).emb x 1).val + (j 1).val = 16 * o + 1 * (j 1).val
      rw [hy1]; omega
  · funext a
    refine Fin.ext ?_
    match a with
    | ⟨0, _⟩ => exact hy0
    | ⟨1, _⟩ => exact hx1.symm

/-- What the body's 64 column stores leave in the output's staging buffer is the block function at the tile's rows. -/
theorem out_eq (c : Dev nD) (i : grid0.Coords) (arg1 : Memref sig .tc .vmem S512x512 .f32) (harg1 : arg1.IsWhole)
    (arg2 : Memref sig .tc .vmem S512x1024 .f32) (harg2 : arg2.IsWhole) (arg3 : Memref sig .tc .vmem S128x1 .f32)
    (harg3 : arg3.IsWhole) (arg4 : Memref sig .tc .vmem S128x64 .f32) (harg4 : arg4.IsWhole)
    (arg5 : Memref sig .tc .vmem S512x1024 .f32) (harg5 : arg5.IsWhole)
    (x0 : Vec F S512x512 .f32) (x1 : Vec F S512x1024 .f32) (x2 : Vec F S128x1 .f32) :
    out0_A_3 c i arg1 harg1 arg2 harg2 arg3 harg3 arg4 harg4 arg5 harg5 x0 x1 x2
      = blockFn (k0_off1 i) (k0_off1_inb i) x0 x1 x2 := by
  unfold out0_A_3
  rw [View.read_writes_eq_canon _ _ _ (cover0_A_3 c i arg1 harg1 arg2 harg2 arg3 harg3 arg4 harg4 arg5 harg5 x0 x1 x2)]
  funext y
  refine View.canon_apply_of_pieces (blockFn (k0_off1 i) (k0_off1_inb i) x0 x1 x2) _ ?_ y
    (cover0_A_3 c i arg1 harg1 arg2 harg2 arg3 harg3 arg4 harg4 arg5 harg5 x0 x1 x2 y)
  unfold kernelRun0_A
  dsimp only
  sl_unfold_run_names
  simp only [View.readAt_eq_ld, harg1.read_unread, harg2.read_unread, harg3.read_unread, View.ld_unit_zero (S := S512x512) hz,
    View.ld_unit_zero (S := S512x1024) hz, View.ld_unit_zero (S := S128x1) hz, View.read_writes_junk_eq_canon,
    View.readCov_eq_canon', View.canon_unit_zero (S := S512x1024) hz]
  repeat' (first | exact fun _ h => absurd h List.not_mem_nil | refine List.forall_mem_cons.mpr ⟨?_, ?_⟩)
  all_goals (intro x; exact (piece_eq (k0_off1 i) (k0_off1_inb i) x0 x1 x2 _ (by decide) (by decide) (by decide) x).symm)

end Cert.KernelIdeal.Block

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Whole.lean ====
/-
  From blocks to the array: the idealized kernel's result array is `Cert.Pairwise.G` of its arguments.

  Grid point `t` owns rows `128 t … 128 t + 127`. It finds the whole of `x` and of the flattened weights in its
  first two windows, rows `128 t …` of the weight column (the weights `w (0, ·)` reshaped to a column) in the third, and the
  scratch rows it reads back start at `128 t`. Its stored projection is the plain product `x · tf` (a change of float
  format is the identity on the extended reals), so the block function of the tile is, row by row, the specification's
  entry at row `128 t + p` (zero minus a sum is its negation). Each point writes its block back, and row `r` lies in
  point `r / 128`'s block, so the four blocks cover the array.
-/
import proofs.«170660_j4587025072595_1_alg».proof.Proof.Gen.KernelIdeal.Value
import proofs.«170660_j4587025072595_1_alg».proof.Proof.TileBlock
import proofs.«170660_j4587025072595_1_alg».proof.Proof.LibRowwise
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.KernelIdeal.Value Cert.KernelIdeal.Block Cert.Pairwise
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The stored projection and the block function, at an entry -/

/-- The projection the body stores in scratch, at `(r, n)`: the plain product. -/
theorem pay2_apply (X0 : Vec Ideal S512x512 .f32) (X1 : Vec Ideal S512x1024 .f32) (r : Fin 512) (n : Fin 1024) :
    k0_pay2 (F := Ideal) X0 X1 (ix2 r n) = proj X0 X1 r n := by
  show shapeCast S512x1024 (matmul (F := Ideal) dot_S512x512_S512x1024_S512x1024_1_0_0_1_n_n none
      (truncf (F := Ideal) .bf16 X0 bitsLt_bf16_f32)
      (truncf (F := Ideal) .bf16 (shapeCast S512x1024 X1 shapeCasts_S512x1024_S512x1024) bitsLt_bf16_f32)
      (constant (F := Ideal) S512x1024 .f32 0x00000000#32)) shapeCasts_S512x1024_S512x1024 (ix2 r n) = _
  rw [shapeCast_self, shapeCast_self,
    Cert.Lib.Rowwise.eq_plain dot_S512x512_S512x1024_S512x1024_1_0_0_1_n_n rfl rfl rfl rfl rfl rfl]
  exact Cert.Lib.Rowwise.plain_matmul_zero_apply none _ _ r n

/-- The block function of the tile at rows `128 T …`, whose weight column holds `w (0, 128 T + p)`, is the
    specification's entry at row `128 T + p`. -/
theorem blockFn_value (off : Fin 2 → Nat) (inb : ∀ a, off a + S128x1024.size a ≤ S512x1024.size a)
    (X0 : Vec Ideal S512x512 .f32) (X1 : Vec Ideal S512x1024 .f32) (X2 : Vec Ideal S128x1 .f32)
    (w : (⟨2, ![1, 512]⟩ : Shape).Idx → EReal) (T : Nat) (hT : T < 4) (hoff : off = ![128 * T, 0])
    (hw : ∀ p : Fin 128, X2 (ix2 p 0) = w (ix2 0 ⟨128 * T + p.val, by omega⟩)) (y : S128x64.Idx) :
    blockFn off inb X0 X1 X2 y
      = entry X0 w X1 ⟨128 * T + (y 0).val, by have h : (y 0).val < 128 := (y 0).isLt; omega⟩ ⟨(y 1).val, (y 1).isLt⟩ := by
  obtain ⟨p, o, rfl⟩ : ∃ (p : Fin 128) (o : Fin 64), y = ix2 p o := ⟨y 0, y 1, eq_ix2 y⟩
  unfold blockFn
  refine (Cert.Pairwise.column_apply _ _ _ _ _ _ _ _ _ _ _ _ p 0).trans ?_
  unfold entry Cert.Pairwise.dist
  have hwc : k0_pay3 (F := Ideal) X2 (ix2 p 0) = w (ix2 0 ⟨128 * T + p.val, by omega⟩) := by
    show shapeCast S128x1 X2 shapeCasts_S128x1_S128x1 (ix2 p 0) = _
    rw [shapeCast_self]
    exact hw p
  rw [hwc]
  refine congrArg (fun s => w (ix2 0 ⟨128 * T + p.val, by omega⟩) * s - w (ix2 0 ⟨128 * T + p.val, by omega⟩))
    (Finset.sum_congr rfl fun i _ => ?_)
  rw [zero_sub]
  refine congrArg (fun s => Ideal.exp (-s)) (Finset.sum_congr rfl fun k _ => ?_)
  have hA : tile off inb X0 X1 (ix2 p (lane o k)) = proj X0 X1 ⟨128 * T + p.val, by omega⟩ (lane o k) := by
    show k0_pay2 X0 X1 ((Rect.unit (s := S512x1024) off S128x1024.size inb).idx (ix2 p (lane o k))) = _
    have e : (Rect.unit (s := S512x1024) off S128x1024.size inb).idx (ix2 p (lane o k))
        = ix2 (⟨128 * T + p.val, by omega⟩ : Fin 512) (lane o k) := by
      subst hoff
      funext a
      refine Fin.ext ?_
      match a with
      | ⟨0, _⟩ => show 128 * T + 1 * p.val = 128 * T + p.val; omega
      | ⟨1, _⟩ => show 0 + 1 * (lane o k).val = (lane o k).val; omega
    rw [e, pay2_apply]
  show max (tile off inb X0 X1 (ix2 p (lane o k)) - k0_pay2 X0 X1 (ix2 i (lane o k)))
      (-(tile off inb X0 X1 (ix2 p (lane o k)) - k0_pay2 X0 X1 (ix2 i (lane o k)))) = _
  rw [hA, pay2_apply]

/-! ## The arrays as the specification takes them, and what the region finds -/

/-- The batch. -/
abbrev xarr (c : Dev nD) : (⟨2, ![512, 512]⟩ : Shape).Idx → EReal := m ((c : Thread nD τ).loc main_arg0)
/-- The weights `w (0, ·)`. -/
abbrev warr (c : Dev nD) : (⟨2, ![1, 512]⟩ : Shape).Idx → EReal := m ((c : Thread nD τ).loc main_arg1)
/-- The weight tensor flattened to [512, 1024]. -/
abbrev tfarr (c : Dev nD) : (⟨2, ![512, 1024]⟩ : Shape).Idx → EReal :=
  shapeCast S512x1024 (m ((c : Thread nD τ).loc main_arg2)) shapeCasts_S512x64x16_S512x1024
/-- The result array the kernel ends with. -/
abbrev result (c : Dev nD) : (⟨2, ![512, 64]⟩ : Shape).Idx → EReal := G (xarr m c) (warr m c) (tfarr m c)

/-- The second window's array is the flattened weight tensor. -/
theorem V_flat (c : Dev nD) : (V m c main_v0 : S512x1024.Idx → EReal) = tfarr m c := by
  dsimp only [Gen.V, Gen.hostOps0]; after_results; rfl

/-- The third window's array is the weights reshaped to a column. -/
theorem V_col (c : Dev nD) :
    (V m c main_v1 : S512x1.Idx → EReal) = shapeCast S512x1 (warr m c) shapeCasts_S1x512_S512x1 := by
  dsimp only [Gen.V, Gen.hostOps0]; after_results; rfl

theorem t_lt (t : Fin cfg0.N) : t.val < 4 := by
  have h := t.isLt
  have hN : cfg0.N = 4 := N_0
  omega

/-- The printed index maps, decided over the four points: the first two windows stay at block (0, 0), the weight column's
    and the output's block row is the point, and the body's own coordinate is the point. -/
theorem idx_facts : ∀ t : Fin cfg0.N, (grid0.coords t 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The first window's block is the whole batch. -/
theorem iblk0 (c : Dev nD) (t : Fin cfg0.N) : iblk m c 0 t = xarr m c := by
  obtain ⟨_, e0, e1, _⟩ := idx_facts t
  unfold iblk
  funext j
  show V m c main_arg0 (((cfg0.win 0).blk t).view.emb j) = _
  rw [V_main_arg0]
  refine congrArg (m ((c : Thread nD τ).loc main_arg0)) (funext fun a => Fin.ext ?_)
  match a with
  | ⟨0, _⟩ => show win0_0.index t (0 : Fin 2) * 512 + 1 * (j 0).val = (j 0).val; rw [e0]; omega
  | ⟨1, _⟩ => show win0_0.index t (1 : Fin 2) * 512 + 1 * (j 1).val = (j 1).val; rw [e1]; omega

/-- The second window's block is the whole flattened weight tensor. -/
theorem iblk1 (c : Dev nD) (t : Fin cfg0.N) : iblk m c 1 t = tfarr m c := by
  obtain ⟨_, _, _, e0, e1, _⟩ := idx_facts t
  unfold iblk
  funext j
  show V m c main_v0 (((cfg0.win 1).blk t).view.emb j) = _
  rw [V_flat]
  refine congrArg (tfarr m c) (funext fun a => Fin.ext ?_)
  match a with
  | ⟨0, _⟩ => show win0_1.index t (0 : Fin 2) * 512 + 1 * (j 0).val = (j 0).val; rw [e0]; omega
  | ⟨1, _⟩ => show win0_1.index t (1 : Fin 2) * 1024 + 1 * (j 1).val = (j 1).val; rw [e1]; omega

/-- The third window's block at row `p`: the weight of row `128 t + p`. -/
theorem iblk2_at (c : Dev nD) (t : Fin cfg0.N) (p : Fin 128) :
    iblk m c 2 t (ix2 p (0 : Fin 1)) = warr m c (ix2 0 ⟨128 * t.val + p.val, by have := t_lt t; omega⟩) := by
  obtain ⟨_, _, _, _, _, e0, e1, _⟩ := idx_facts t
  unfold iblk
  show V m c main_v1 (((cfg0.win 2).blk t).view.emb (ix2 p (0 : Fin 1))) = _
  rw [V_col]
  refine shapeCast_apply _ shapeCasts_S1x512_S512x1 _ _ ?_
  rw [Shape.rowMajor_val_two, Shape.rowMajor_val_two]
  show 0 * 512 + (128 * t.val + p.val)
    = (win0_2.index t (0 : Fin 2) * 128 + 1 * p.val) * 1 + (win0_2.index t (1 : Fin 2) * 1 + 1 * 0)
  rw [e0, e1]; omega

/-! ## What a point writes back, the cover, the array -/

/-- WHAT POINT `t` WRITES BACK is block `t` of the specification of the argument arrays. -/
theorem flushed_eq (c : Dev nD) (t : Fin cfg0.N) :
    (dats m 0 c).flushed 3 t = ((cfg0.win 3).blk t).view.read (Elt Ideal) (result m c) := by
  obtain ⟨ec, _, _, _, _, _, _, e0, e1⟩ := idx_facts t
  rw [flushed3_A, out_eq]
  funext j
  show blockFn (k0_off1 (grid0.coords t)) (k0_off1_inb (grid0.coords t)) (iblk m c 0 t) (iblk m c 1 t) (iblk m c 2 t) j
      = result m c (((cfg0.win 3).blk t).view.emb j)
  refine (blockFn_value _ _ _ _ _ (warr m c) t.val (t_lt t) ((k0_off1_eq _).trans (by rw [ec]))
    (fun p => iblk2_at m c t p) j).trans ?_
  rw [iblk0, iblk1]
  have hr : ((((cfg0.win 3).blk t).view.emb j) 0).val = 128 * t.val + (j 0).val := by
    show win0_3.index t (0 : Fin 2) * 128 + 1 * (j 0).val = _
    rw [e0]; omega
  have ho : ((((cfg0.win 3).blk t).view.emb j) 1).val = (j 1).val := by
    show win0_3.index t (1 : Fin 2) * 64 + 1 * (j 1).val = _
    rw [e1]; omega
  exact congrArg₂ (entry (xarr m c) (warr m c) (tfarr m c)) (Fin.ext hr.symm) (Fin.ext ho.symm)

/-- An index of the array is in point `t`'s block iff each coordinate is in the block's range on its axis. -/
theorem mem_blk (t : Fin cfg0.N) (i : S512x64.Idx) :
    i ∈ ((cfg0.win 3).blk t).view.set ↔ ∀ a : Fin 2, win0_3.index t a * S128x64.size a ≤ (i a).val
      ∧ (i a).val < win0_3.index t a * S128x64.size a + S128x64.size a := by
  show i ∈ ((View.whole main_v2).slice (win0_3.rect t)).set ↔ _
  rw [View.set_slice_whole, Rect.mem_set_unit]
  exact Iff.rfl

/-- Row `r` lies in point `r / 128`'s block, and every point writes back. -/
theorem cover (i : S512x64.Idx) : ∃ t : Fin cfg0.N, (cfg0.win 3).flush t = true ∧ i ∈ ((cfg0.win 3).blk t).view.set := by
  have hi0 : (i 0).val < 512 := (i 0).isLt
  have hi1 : (i 1).val < 64 := (i 1).isLt
  have hN : cfg0.N = 4 := N_0
  obtain ⟨t, ht⟩ : ∃ t : Fin cfg0.N, t.val = (i 0).val / 128 := ⟨⟨(i 0).val / 128, by omega⟩, rfl⟩
  obtain ⟨_, _, _, _, _, _, _, e0, e1⟩ := idx_facts t
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    rw [e0]; omega
  | ⟨1, _⟩ =>
    show win0_3.index t (1 : Fin 2) * 64 ≤ (i 1).val ∧ (i 1).val < win0_3.index t (1 : Fin 2) * 64 + 64
    rw [e1]; omega

/-- THE ARRAY after the run is the specification of the argument arrays. -/
theorem final (c : Dev nD) : (dats m 0 c).arrAt 3 cfg0.N = result m c :=
  (dats m 0 c).arrAt_eq_of_cover 3 (result m c) (fun t _ => flushed_eq m c t) cover

/-- The frame run re-posted: the result array at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.ReferenceValue.lean ====
/-
  The reference, stage by stage, computes `Cert.Pairwise.G`.

  Its projection reshaped to [512, 64, 16] holds `P r (16 o + k)` at `(r, o, k)`; the two broadcasts to
  [512, 512, 64, 16] put row `r` (axis 1) against row `a` (axis 0), so the difference at `(a, r, o, k)` is
  `P r (16 o + k) − P a (16 o + k)`; its absolute value summed over `k` from zero is the L1 distance of rows `r` and
  `a` in channel `o`; negated, exponentiated and summed over `a` from zero it is row `r`'s similarity mass; the
  weight `w (0, r)`, reshaped and broadcast along the channels, multiplies it and is subtracted.
-/
import proofs.«170660_j4587025072595_1_alg».proof.Proof.Gen.ReferenceIdeal.Read
import proofs.«170660_j4587025072595_1_alg».proof.Proof.Pairwise
import Idealize.ShloMosaic.Lib.ValueIdx
import Idealize.ShloMosaic.PureOps.Ideal.Laws

noncomputable section

namespace Cert.ReferenceIdeal.RefValue

open Cert.ReferenceIdeal Cert.ReferenceIdeal.Read Cert.Pairwise Idealize.ShloMosaic Idealize.ShloMosaic.ValueIdx

variable (x0 : (⟨S512x512, .f32⟩ : BufTy).Contents (Elt Ideal)) (x1 : (⟨S1x512, .f32⟩ : BufTy).Contents (Elt Ideal))
  (x2 : (⟨S512x64x16, .f32⟩ : BufTy).Contents (Elt Ideal))

/-- The weights flattened to [512, 1024], as the reference's first reshape leaves them. -/
abbrev tf : (⟨2, ![512, 1024]⟩ : Shape).Idx → EReal := val_main_v0 (F := Ideal) x2

/-- The product at `(r, n)` is the projection. -/
theorem v1_at (r : Fin 512) (n : Fin 1024) : val_main_v1 (F := Ideal) x0 x2 (ix2 r n) = proj x0 (tf x2) r n := by
  rw [val_main_v1_apply]
  refine Finset.sum_congr rfl fun c _ => ?_
  have el : lidx_main_v1 (ix2 r n) c = ix2 r c :=
    funext fun a => Fin.ext (by match a with | ⟨0, _⟩ => rfl | ⟨1, _⟩ => rfl)
  have er : ridx_main_v1 (ix2 r n) c = ix2 c n :=
    funext fun a => Fin.ext (by match a with | ⟨0, _⟩ => rfl | ⟨1, _⟩ => rfl)
  rw [el, er]

/-- Reshaped to [512, 64, 16], at `(r, o, k)`: lane `k` of channel `o`. -/
theorem v2_at (r : Fin 512) (o : Fin 64) (k : Fin 16) :
    val_main_v2 (F := Ideal) x0 x2 (ix3 r o k) = proj x0 (tf x2) r (lane o k) := by
  rw [val_main_v2_apply]
  have e : idx_main_v2 (ix3 r o k) = ix2 r (lane o k) := funext fun a => Fin.ext (by
    have hr := r.isLt; have ho := o.isLt; have hk := k.isLt
    match a with
    | ⟨0, _⟩ => show ((r.val * 64 + o.val) * 16 + k.val) / 1024 = r.val; omega
    | ⟨1, _⟩ => show ((r.val * 64 + o.val) * 16 + k.val) % 1024 = 16 * o.val + k.val; omega)
  rw [e, v1_at]

/-- The broadcast difference at `(a, r, o, k)`: row `r` against row `a`. -/
theorem v7_at (a r : Fin 512) (o : Fin 64) (k : Fin 16) :
    val_main_v7 (F := Ideal) x0 x2 (ix4 a r o k) = proj x0 (tf x2) r (lane o k) - proj x0 (tf x2) a (lane o k) := by
  rw [val_main_v7_apply, val_main_v5_apply, val_main_v3_apply, val_main_v6_apply, val_main_v4_apply]
  have e5 : idx_main_v3 (idx_main_v5 (ix4 a r o k)) = ix3 r o k :=
    funext fun c => Fin.ext (by match c with | ⟨0, _⟩ => rfl | ⟨1, _⟩ => rfl | ⟨2, _⟩ => rfl)
  have e6 : idx_main_v4 (idx_main_v6 (ix4 a r o k)) = ix3 a o k :=
    funext fun c => Fin.ext (by match c with | ⟨0, _⟩ => rfl | ⟨1, _⟩ => rfl | ⟨2, _⟩ => rfl)
  rw [e5, e6, v2_at, v2_at]
  rfl

/-- The sum over the lanes at `(a, r, o)`: the L1 distance of rows `r` and `a` in channel `o`. -/
theorem v9_at (a r : Fin 512) (o : Fin 64) : val_main_v9 (F := Ideal) x0 x2 (ix3 a r o) = dist x0 (tf x2) o r a := by
  rw [val_main_v9_apply, val_main_cst_apply]
  show Ideal.ofBits .f32 0x00000000#32 + _ = _
  rw [Ideal.ofBits_zero_f32, zero_add]
  unfold Cert.Pairwise.dist
  refine Finset.sum_congr rfl fun k _ => ?_
  have e : idx_main_v9 (ix3 a r o) k = ix4 a r o k :=
    funext fun c => Fin.ext (by match c with | ⟨0, _⟩ => rfl | ⟨1, _⟩ => rfl | ⟨2, _⟩ => rfl | ⟨3, _⟩ => rfl)
  rw [val_main_v8_apply, e, v7_at]
  rfl

/-- The sum over the rows at `(r, o)`: row `r`'s similarity mass in channel `o`. -/
theorem v14_at (r : Fin 512) (o : Fin 64) :
    val_main_v14 (F := Ideal) x0 x2 (ix2 r o) = ∑ a : Fin 512, Ideal.exp (-(dist x0 (tf x2) o r a)) := by
  rw [val_main_v14_apply, val_main_cst_0_apply]
  show Ideal.ofBits .f32 0x00000000#32 + _ = _
  rw [Ideal.ofBits_zero_f32, zero_add]
  refine Finset.sum_congr rfl fun a _ => ?_
  have e : idx_main_v14 (ix2 r o) a = ix3 a r o :=
    funext fun c => Fin.ext (by match c with | ⟨0, _⟩ => rfl | ⟨1, _⟩ => rfl | ⟨2, _⟩ => rfl)
  rw [val_main_v11_apply, val_main_v10_apply, e, v9_at]
  rfl

/-- The weight column broadcast along the channels, at `(r, o)`: `w (0, r)`. -/
theorem w_at (r : Fin 512) (o : Fin 64) : val_main_v15 (F := Ideal) x1 (ix2 r o) = x1 (ix2 0 r) := by
  rw [val_main_v15_apply, val_main_v13_apply, val_main_v12_apply]
  exact congrArg x1 (funext fun c => Fin.ext (by
    match c with
    | ⟨0, _⟩ => rfl
    | ⟨1, _⟩ => show r.val % 512 = r.val; exact Nat.mod_eq_of_lt r.isLt))

theorem w_at' (r : Fin 512) (o : Fin 64) : val_main_v17 (F := Ideal) x1 (ix2 r o) = x1 (ix2 0 r) := w_at x1 r o

/-- The reference's result is the specification, of its arguments and its own flattened weights. -/
theorem result_eq : val_main_v18 (F := Ideal) x0 x1 x2 = G x0 x1 (tf x2) := by
  funext i
  obtain ⟨r, o, rfl⟩ : ∃ (r : Fin 512) (o : Fin 64), i = ix2 r o := ⟨i 0, i 1, eq_ix2 i⟩
  rw [G_ix2, val_main_v18_apply, val_main_v16_apply, w_at, w_at', v14_at]
  rfl

end Cert.ReferenceIdeal.RefValue

end
-- ==== Proof.lean ====
/-
  Pairwise L1 similarity over a batch (minibatch discrimination): the claim's five conjuncts.

  Both programs project the batch, `P = x · tf` with `tf` the weight tensor flattened to 512 × 1024, and return, at row
  `r` and channel `o`,  `w r · ∑ₐ exp (−∑ₖ |P r (16 o + k) − P a (16 o + k)|) − w r`  (`Cert.Pairwise.G`).
  The kernel walks four tiles of 128 rows; each stores the projection in scratch, and fills its 128 × 64 output block one
  channel column at a time from transposed, broadcast differences. The reference broadcasts the projection against
  itself in four dimensions and reduces twice. Over the extended reals the two are the same sums over the same index
  sets: a change of float format is the identity, the kernel's product into a zero accumulator is the host's product,
  each reduction from the zero word is the plain sum, and zero minus a value is its negation. No law used needs the
  inputs finite, so the precondition is not opened.

    * the two kernel frames are the generated frame certificates; the reference's frame is its generated run with the
      result dropped;
    * the ideal pass rewrote nothing, so `preserves` is `True`;
    * `algebraic`: the kernel's run ends with its result array at `G` of its arguments (Proof/Whole.lean, over
      Proof/TileBlock.lean and Proof/Pairwise.lean), the reference's run with its result at `G` of its own
      (Proof/ReferenceValue.lean), and the arguments agree.
-/
import proofs.«170660_j4587025072595_1_alg».proof.Defs
import proofs.«170660_j4587025072595_1_alg».proof.Proof.Gen.Kernel
import proofs.«170660_j4587025072595_1_alg».proof.Proof.Gen.Kernel.Skeleton
import proofs.«170660_j4587025072595_1_alg».proof.Proof.Gen.Kernel.Launch
import proofs.«170660_j4587025072595_1_alg».proof.Proof.Gen.Kernel.Points
import proofs.«170660_j4587025072595_1_alg».proof.Proof.Gen.Kernel.Frame
import proofs.«170660_j4587025072595_1_alg».proof.Proof.Gen.KernelIdeal
import proofs.«170660_j4587025072595_1_alg».proof.Proof.Gen.KernelIdeal.Skeleton
import proofs.«170660_j4587025072595_1_alg».proof.Proof.Gen.KernelIdeal.Launch
import proofs.«170660_j4587025072595_1_alg».proof.Proof.Gen.KernelIdeal.Points
import proofs.«170660_j4587025072595_1_alg».proof.Proof.Gen.KernelIdeal.Frame
import proofs.«170660_j4587025072595_1_alg».proof.Proof.Gen.ReferenceIdeal
import proofs.«170660_j4587025072595_1_alg».proof.Proof.Gen.Pre_finite_inputs
import proofs.«170660_j4587025072595_1_alg».proof.Proof.Gen.KernelIdeal.Value
import proofs.«170660_j4587025072595_1_alg».proof.Proof.Gen.ReferenceIdeal.Run
import proofs.«170660_j4587025072595_1_alg».proof.Proof.Gen.ReferenceIdeal.Read
import proofs.«170660_j4587025072595_1_alg».proof.Proof.Whole
import proofs.«170660_j4587025072595_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with their result arrays at the specification of their own arguments; the arguments agree, and the
    two programs flatten the weight tensor by the same reshape. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
